-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S128x64 .f32) (main_arg11 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S128x128 .f32) (main_arg7 : FVec F S128x128 .f32) (main_arg8 : FVec F S128 .f32) (main_arg9 : FVec F S128x64 .f32) (main_arg10 : FVec F S128x64 .f32) (main_arg11 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S800000 32) (main_arg2 : IVec S800000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x64 .f32) (main_arg10 : FVec F S128x64 .f32) (main_arg11 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 76
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x128, .f32⟩
  | .hbm, ⟨51, _⟩ => ⟨S_, .f32⟩
  | .hbm, ⟨52, _⟩ => ⟨S50000x128, .f32⟩
  | .hbm, ⟨53, _⟩ => ⟨S800000x1, .i32⟩
  | .hbm, ⟨54, _⟩ => ⟨S50000x128, .f32⟩
  | .hbm, ⟨55, _⟩ => ⟨S50000x128, .f32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x128, .f32⟩
  | .hbm, ⟨68, _⟩ => ⟨S_, .f32⟩
  | .hbm, ⟨69, _⟩ => ⟨S50000x128, .f32⟩
  | .hbm, ⟨70, _⟩ => ⟨S800000x1, .i32⟩
  | .hbm, ⟨71, _⟩ => ⟨S50000x128, .f32⟩
  | .hbm, ⟨72, _⟩ => ⟨S50000x128, .f32⟩
  | .hbm, ⟨73, _⟩ => ⟨S50000x128, .f32⟩
  | .hbm, ⟨74, _⟩ => ⟨S1x64, .f32⟩
  | .hbm, ⟨75, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S128x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_3 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v49) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v50) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S128x64, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S_, .f32⟩
  | .hbm, ⟨84, _⟩ => ⟨S50000x128, .f32⟩
  | .hbm, ⟨85, _⟩ => ⟨S800000x1, .i32⟩
  | .hbm, ⟨86, _⟩ => ⟨S50000x128, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S50000x64, .f32⟩
  | .hbm, ⟨91, _⟩ => ⟨S50000x64, .f32⟩
  | .hbm, ⟨92, _⟩ => ⟨S50000x64, .f32⟩
  | .hbm, ⟨93, _⟩ => ⟨S1x64, .f32⟩
  | .hbm, ⟨94, _⟩ => ⟨S50000x64, .f32⟩
  | .hbm, ⟨95, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_c_8 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  The mathematics both programs compute, stated once over literal shapes and the extended reals.

  A graph of 50000 nodes carries a feature row per node. One layer of the network sends the feature
  array `h` (50000 × 128) and its neighbour average `hn` (the same shape) to

      out[n, j] = (∑ k, h[n, k] · Wself[k, j]  +  ∑ k, hn[n, k] · Wneigh[k, j])  +  b[j],

  a sum of two matrix products and a bias, each entry depending on row `n` of `h` and `hn`, on column `j`
  of the two weight matrices and on entry `j` of the bias. The first two layers (128 output features)
  are followed by `max (·, 0)`; the last (64 output features) is not. The neighbour average is an
  operation on whole feature arrays that both programs compute by the very same host operations, so it
  enters here as a PARAMETER `nb`: nothing below depends on what it is.

  Only + and · of the extended reals in this order and grouping are used, so no finiteness of any
  entry is needed for the two programs to agree: they compute these very terms.
-/
import Idealize.ShloMosaic.PureOps.Ideal
import Idealize.ShloMosaic.Lib.ValueIdx
import Idealize.ShloMosaic.Lib.Pipeline.Value

noncomputable section

namespace Sage

open Idealize.ShloMosaic Idealize.ShloMosaic.ValueIdx

/-- Node features, 128 per node. -/
abbrev Feat : Shape := ⟨2, ![50000, 128]⟩
/-- The last layer's output, 64 per node. -/
abbrev Out : Shape := ⟨2, ![50000, 64]⟩
/-- A weight matrix of a hidden layer. -/
abbrev W128 : Shape := ⟨2, ![128, 128]⟩
/-- A weight matrix of the last layer. -/
abbrev W64 : Shape := ⟨2, ![128, 64]⟩
/-- A bias of a hidden layer. -/
abbrev B128 : Shape := ⟨1, ![128]⟩
/-- The bias of the last layer. -/
abbrev B64 : Shape := ⟨1, ![64]⟩

/-- The float zero both programs compare with, kept as its word. -/
abbrev zero : EReal := Ideal.ofBits .f32 0x00000000#32

/-- A hidden layer before its activation: entry (n, j) is row n of `h` against column j of `Ws`, plus row n of
    `hn` against column j of `Wn`, plus `b j`. -/
def dense128 (h hn : FVec Ideal Feat .f32) (Ws Wn : FVec Ideal W128 .f32) (b : FVec Ideal B128 .f32) : FVec Ideal Feat .f32 :=
  fun i => ((∑ k : Fin 128, h (ix2 (i 0) k) * Ws (ix2 k (i 1))) + ∑ k : Fin 128, hn (ix2 (i 0) k) * Wn (ix2 k (i 1))) + b (ix1 (i 1))

/-- The last layer: the same with 64 output features. -/
def dense64 (h hn : FVec Ideal Feat .f32) (Ws Wn : FVec Ideal W64 .f32) (b : FVec Ideal B64 .f32) : FVec Ideal Out .f32 :=
  fun i => ((∑ k : Fin 128, h (ix2 (i 0) k) * Ws (ix2 k (i 1))) + ∑ k : Fin 128, hn (ix2 (i 0) k) * Wn (ix2 k (i 1))) + b (ix1 (i 1))

/-- The activation of the hidden layers, entry by entry. -/
def relu (a : FVec Ideal Feat .f32) : FVec Ideal Feat .f32 := fun i => max (a i) zero

/-- A hidden layer with its activation. -/
def hidden (h hn : FVec Ideal Feat .f32) (Ws Wn : FVec Ideal W128 .f32) (b : FVec Ideal B128 .f32) : FVec Ideal Feat .f32 :=
  relu (dense128 h hn Ws Wn b)

/-- The whole network over a neighbour-averaging operation `nb`: two hidden layers and the last one, each fed the
    previous features and their neighbour average. -/
def net (nb : FVec Ideal Feat .f32 → FVec Ideal Feat .f32) (x : FVec Ideal Feat .f32)
    (Ws0 Wn0 : FVec Ideal W128 .f32) (b0 : FVec Ideal B128 .f32)
    (Ws1 Wn1 : FVec Ideal W128 .f32) (b1 : FVec Ideal B128 .f32)
    (Ws2 Wn2 : FVec Ideal W64 .f32) (b2 : FVec Ideal B64 .f32) : FVec Ideal Out .f32 :=
  dense64 (hidden (hidden x (nb x) Ws0 Wn0 b0) (nb (hidden x (nb x) Ws0 Wn0 b0)) Ws1 Wn1 b1)
    (nb (hidden (hidden x (nb x) Ws0 Wn0 b0) (nb (hidden x (nb x) Ws0 Wn0 b0)) Ws1 Wn1 b1)) Ws2 Wn2 b2

theorem dense128_apply (h hn : FVec Ideal Feat .f32) (Ws Wn : FVec Ideal W128 .f32) (b : FVec Ideal B128 .f32)
    (n : Fin 50000) (j : Fin 128) :
    dense128 h hn Ws Wn b (ix2 n j)
      = ((∑ k : Fin 128, h (ix2 n k) * Ws (ix2 k j)) + ∑ k : Fin 128, hn (ix2 n k) * Wn (ix2 k j)) + b (ix1 j) := rfl

theorem dense64_apply (h hn : FVec Ideal Feat .f32) (Ws Wn : FVec Ideal W64 .f32) (b : FVec Ideal B64 .f32)
    (n : Fin 50000) (j : Fin 64) :
    dense64 h hn Ws Wn b (ix2 n j)
      = ((∑ k : Fin 128, h (ix2 n k) * Ws (ix2 k j)) + ∑ k : Fin 128, hn (ix2 n k) * Wn (ix2 k j)) + b (ix1 j) := rfl

theorem hidden_apply (h hn : FVec Ideal Feat .f32) (Ws Wn : FVec Ideal W128 .f32) (b : FVec Ideal B128 .f32)
    (n : Fin 50000) (j : Fin 128) :
    hidden h hn Ws Wn b (ix2 n j)
      = max (((∑ k : Fin 128, h (ix2 n k) * Ws (ix2 k j)) + ∑ k : Fin 128, hn (ix2 n k) * Wn (ix2 k j)) + b (ix1 j)) zero := rfl

/-! ## A bias handed over as a one-row matrix

The kernel's program reshapes each bias `[D]` to `[1, D]` before the call; entry (0, j) of the row is entry j of
the bias. -/

/-- The one row of a `1 × 128` matrix as a vector. -/
def row128 (r : FVec Ideal ⟨2, ![1, 128]⟩ .f32) : FVec Ideal B128 .f32 := fun j => r (ix2 0 (j 0))

/-- The one row of a `1 × 64` matrix as a vector. -/
def row64 (r : FVec Ideal ⟨2, ![1, 64]⟩ .f32) : FVec Ideal B64 .f32 := fun j => r (ix2 0 (j 0))

theorem row128_apply (r : FVec Ideal ⟨2, ![1, 128]⟩ .f32) (j : Fin 128) : row128 r (ix1 j) = r (ix2 0 j) := rfl

theorem row64_apply (r : FVec Ideal ⟨2, ![1, 64]⟩ .f32) (j : Fin 64) : row64 r (ix1 j) = r (ix2 0 j) := rfl

/-- Reshaping a bias to one row and reading the row back gives the bias. -/
theorem row128_reshape (b : FVec Ideal B128 .f32) (h : B128.ShapeCasts ⟨2, ![1, 128]⟩) :
    row128 (shapeCast ⟨2, ![1, 128]⟩ b h) = b := by
  funext j
  unfold row128
  refine (shapeCast_addUnit_apply ![128] b h (ix2 0 (j 0))).trans (congrArg b (funext fun a => ?_))
  match a with
  | ⟨0, _⟩ => rfl

theorem row64_reshape (b : FVec Ideal B64 .f32) (h : B64.ShapeCasts ⟨2, ![1, 64]⟩) :
    row64 (shapeCast ⟨2, ![1, 64]⟩ b h) = b := by
  funext j
  unfold row64
  refine (shapeCast_addUnit_apply ![64] b h (ix2 0 (j 0))).trans (congrArg b (funext fun a => ?_))
  match a with
  | ⟨0, _⟩ => rfl

end Sage

end
-- ==== Proof.Pay.lean ====
/-
  What one grid point's body stores, read entry by entry at the exact values.

  The body loads a block of 5000 rows of the features `x0` and of their neighbour average `x1`, the two
  weight matrices `x2`, `x3` whole and the bias as one row `x4`, and stores
  `(x0 · x2 + x1 · x3) + x4` (the first two layers: then the larger of that and zero). The changes of float
  format before the products are the identity at the exact values, the products into a zero accumulator are
  plain sums over the 128 contracted positions, and the bias row is repeated down the 5000 rows.
-/
import proofs.«170023_j24232205484235_1_alg».proof.Proof.Gen.KernelIdeal.Skeleton
import proofs.«170023_j24232205484235_1_alg».proof.Proof.Spec
import Idealize.ShloMosaic.PureOps.Ideal.Laws
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen

/-! ## The two contractions' operand positions, axis by axis -/

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem lhs64_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs64_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs64_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs64_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The products at an entry -/

/-- The matrix unit's product of a block of 5000 rows with a `128 × 128` matrix into the zero accumulator, at the exact values:
    entry (p, q) is the sum over the 128 contracted positions of row p of the left factor against column q of the right. -/
theorem mm128_apply {φ ψ : FTy} (l : FVec Ideal S5000x128 φ) (r : FVec Ideal S128x128 ψ) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The matrix unit's product of a block of 5000 rows with a `128 × 64` matrix into the zero accumulator, at the exact values:
    entry (p, q) is the sum over the 128 contracted positions of row p of the left factor against column q of the right. -/
theorem mm64_apply {φ ψ : FTy} (l : FVec Ideal S5000x128 φ) (r : FVec Ideal S128x64 ψ) (p : Fin 5000) (q : Fin 64) :
    matmul dot_S5000x128_S128x64_S5000x64_1_0_0_1_n_n none l r (constant S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs64_0 _ _
    | ⟨1, _⟩ => exact (lhs64_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs64_0 _ _).trans hk
    | ⟨1, _⟩ => exact rhs64_1 _ _)
  rw [el, er]

/-! ## The bias row repeated down the block -/

theorem bias128_apply (x4 : FVec Ideal S1x128 .f32) (p : Fin 5000) (q : Fin 128) :
    broadcastTo S5000x128 x4 broadcasts_S1x128_S5000x128 (ix2 p q) = x4 (ix2 0 q) := by
  exact broadcastTo_apply x4 broadcasts_S1x128_S5000x128 (ix2 p q) (ix2 0 q) (fun a => match a with
    | ⟨0, _⟩ => rfl
    | ⟨1, _⟩ => rfl)

theorem bias64_apply (x4 : FVec Ideal S1x64 .f32) (p : Fin 5000) (q : Fin 64) :
    broadcastTo S5000x64 x4 broadcasts_S1x64_S5000x64 (ix2 p q) = x4 (ix2 0 q) := by
  exact broadcastTo_apply x4 broadcasts_S1x64_S5000x64 (ix2 p q) (ix2 0 q) (fun a => match a with
    | ⟨0, _⟩ => rfl
    | ⟨1, _⟩ => rfl)

/-! ## The three bodies' stored values at an entry -/

/-- The first layer's body: entry (p, q) of what it stores. -/
theorem pay0_apply (x0 x1 : FVec Ideal S5000x128 .f32) (x2 x3 : FVec Ideal S128x128 .f32) (x4 : FVec Ideal S1x128 .f32)
    (p : Fin 5000) (q : Fin 128) :
    k0_pay1 (F := Ideal) x0 x1 x2 x3 x4 (ix2 p q)
      = max (((∑ k : Fin 128, x0 (ix2 p k) * x2 (ix2 k q)) + ∑ k : Fin 128, x1 (ix2 p k) * x3 (ix2 k q)) + x4 (ix2 0 q)) Sage.zero := by
  unfold k0_pay1
  simp only [maximumf_apply, addf_apply, broadcast_apply, mm128_apply, bias128_apply, shapeCast_self, truncf_apply]
  rfl

/-- The second layer's body: the same function. -/
theorem pay1_apply (x0 x1 : FVec Ideal S5000x128 .f32) (x2 x3 : FVec Ideal S128x128 .f32) (x4 : FVec Ideal S1x128 .f32)
    (p : Fin 5000) (q : Fin 128) :
    k1_pay1 (F := Ideal) x0 x1 x2 x3 x4 (ix2 p q)
      = max (((∑ k : Fin 128, x0 (ix2 p k) * x2 (ix2 k q)) + ∑ k : Fin 128, x1 (ix2 p k) * x3 (ix2 k q)) + x4 (ix2 0 q)) Sage.zero := by
  unfold k1_pay1
  simp only [maximumf_apply, addf_apply, broadcast_apply, mm128_apply, bias128_apply, shapeCast_self, truncf_apply]
  rfl

/-- The last layer's body: 64 output features and no comparison with zero. -/
theorem pay2_apply (x0 x1 : FVec Ideal S5000x128 .f32) (x2 x3 : FVec Ideal S128x64 .f32) (x4 : FVec Ideal S1x64 .f32)
    (p : Fin 5000) (q : Fin 64) :
    k2_pay1 (F := Ideal) x0 x1 x2 x3 x4 (ix2 p q)
      = ((∑ k : Fin 128, x0 (ix2 p k) * x2 (ix2 k q)) + ∑ k : Fin 128, x1 (ix2 p k) * x3 (ix2 k q)) + x4 (ix2 0 q) := by
  unfold k2_pay1
  simp only [addf_apply, mm64_apply, bias64_apply, shapeCast_self, truncf_apply]

end Cert.KernelIdeal.Pay

end
-- ==== Proof.Region0.lean ====
/-
  The first layer's region, read as a value: for ANY contents `V` the TensorCore holds when the region is entered,
  the region's result array ends at the hidden layer (two matrix products, the bias, the comparison with zero)
  of the five arrays it stages from `V`. Ten grid points; point t stages rows 5000·t … 5000·t + 4999 of the
  features and of their neighbour average, both weight matrices and the bias row whole, and writes the same rows
  of the result back; the ten row blocks tile the 50000 rows.
-/
import proofs.«170023_j24232205484235_1_alg».proof.Proof.KernelIdealFrame
import proofs.«170023_j24232205484235_1_alg».proof.Proof.Pay

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

-- the TensorCore's buffer contents when the region is entered: everything below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two feature windows and the output window move down
    the rows with the point, block t at rows 5000·t …; the weights and the bias row stay at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the block at point t is row 5000·t + p of the array. -/
def row (t : Fin cfg0.N) (p : Fin 5000) : Fin 50000 :=
  ⟨t.val * 5000 + p.val, by have h : t.val < 10 := lt_of_lt_of_eq t.isLt N_0; have := p.isLt; omega⟩

/-- What the region's result array ends holding: the layer of the arrays the region finds. -/
def result (c : Dev nD) : FVec Ideal S50000x128 .f32 :=
  Sage.hidden (V c main_arg0) (V c main_v20) (V c main_arg3) (V c main_arg4) (Sage.row128 (V c main_v21))

/-! ## Each window's block, read where the output's rows say -/

theorem blk_h (c : Dev nD) (t : Fin cfg0.N) (p : Fin 5000) (k : Fin 128) :
    (iblk0 V c 0 t : FVec Ideal S5000x128 .f32) (ix2 p k) = (V c main_arg0 : FVec Ideal S50000x128 .f32) (ix2 (row t p) k) := by
  obtain ⟨e0, e1, -⟩ := idx_facts t
  show V c main_arg0 (((cfg0.win 0).blk t).view.emb (ix2 p k)) = V c main_arg0 (ix2 (row t p) k)
  refine congrArg _ (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

theorem blk_hn (c : Dev nD) (t : Fin cfg0.N) (p : Fin 5000) (k : Fin 128) :
    (iblk0 V c 1 t : FVec Ideal S5000x128 .f32) (ix2 p k) = (V c main_v20 : FVec Ideal S50000x128 .f32) (ix2 (row t p) k) := by
  obtain ⟨-, -, e0, e1, -⟩ := idx_facts t
  show V c main_v20 (((cfg0.win 1).blk t).view.emb (ix2 p k)) = V c main_v20 (ix2 (row t p) k)
  refine congrArg _ (funext fun a => Fin.ext ?_)
  match a with
  | ⟨0, _⟩ => show win0_1.index t (0 : Fin 2) * 5000 + 1 * p.val = t.val * 5000 + p.val; rw [e0]; omega
  | ⟨1, _⟩ => show win0_1.index t (1 : Fin 2) * 128 + 1 * k.val = k.val; rw [e1]; omega

theorem blk_ws (c : Dev nD) (t : Fin cfg0.N) (k : Fin 128) (q : Fin 128) :
    (iblk0 V c 2 t : FVec Ideal S128x128 .f32) (ix2 k q) = (V c main_arg3 : FVec Ideal S128x128 .f32) (ix2 k q) := by
  obtain ⟨-, -, -, -, e0, e1, -⟩ := idx_facts t
  show V c main_arg3 (((cfg0.win 2).blk t).view.emb (ix2 k q)) = V c main_arg3 (ix2 k q)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem blk_wn (c : Dev nD) (t : Fin cfg0.N) (k : Fin 128) (q : Fin 128) :
    (iblk0 V c 3 t : FVec Ideal S128x128 .f32) (ix2 k q) = (V c main_arg4 : FVec Ideal S128x128 .f32) (ix2 k q) := by
  obtain ⟨-, -, -, -, -, -, e0, e1, -⟩ := idx_facts t
  show V c main_arg4 (((cfg0.win 3).blk t).view.emb (ix2 k q)) = V c main_arg4 (ix2 k q)
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem blk_b (c : Dev nD) (t : Fin cfg0.N) (q : Fin 128) :
    (iblk0 V c 4 t : FVec Ideal S1x128 .f32) (ix2 0 q) = (V c main_v21 : FVec Ideal S1x128 .f32) (ix2 0 q) := by
  obtain ⟨-, -, -, -, -, -, -, -, e0, e1, -⟩ := idx_facts t
  show V c main_v21 (((cfg0.win 4).blk t).view.emb (ix2 0 q)) = V c main_v21 (ix2 0 q)
  refine congrArg _ (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-- Entry (p, q) of the output's block at point t is entry (5000·t + p, q) of the array. -/
theorem emb_out (t : Fin cfg0.N) (p : Fin 5000) (q : Fin 128) :
    ((cfg0.win 5).blk t).view.emb (ix2 p q) = (ix2 (row t p) q : S50000x128.Idx) := by
  obtain ⟨-, -, -, -, -, -, -, -, -, -, e0, e1⟩ := idx_facts t
  refine funext fun a => Fin.ext ?_
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-! ## What a point writes back, and the array after the run -/

/-- WHAT POINT t WRITES BACK is block t of `result`: the body's stored value at (p, q) is the layer's entry at
    row 5000·t + p, the feature blocks read at that row, the weights and the bias whole. -/
theorem flushed_eq (c : Dev nD) (t : Fin cfg0.N) :
    (dat0 V c).flushed 5 t = ((cfg0.win 5).blk t).view.read (Elt Ideal) (result V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  show k0_pay1 (F := Ideal) (iblk0 V c 0 t) (iblk0 V c 1 t) (iblk0 V c 2 t) (iblk0 V c 3 t) (iblk0 V c 4 t) (ix2 p q)
      = result V c (((cfg0.win 5).blk t).view.emb (ix2 p q))
  rw [emb_out t p q]
  refine (Pay.pay0_apply (iblk0 V c 0 t) (iblk0 V c 1 t) (iblk0 V c 2 t) (iblk0 V c 3 t) (iblk0 V c 4 t) p q).trans ?_
  unfold result
  rw [Sage.hidden_apply, Sage.row128_apply]
  simp only [blk_h V c t p, blk_hn V c t p, blk_ws V c t, blk_wn V c t, blk_b V c t]

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v22).slice (win0_5.rect t)).set ↔ _
  rw [View.set_slice_whole, Rect.mem_set_unit]
  exact Iff.rfl

/-- Every row lies in the block of the point `row / 5000`: the ten blocks tile the array. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  let t : Fin cfg0.N := ⟨(i 0).val / 5000, by rw [show cfg0.N = 10 from N_0]; omega⟩
  obtain ⟨-, -, -, -, -, -, -, -, -, -, e0, e1⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; rw [e0, ht]; omega
  | ⟨1, _⟩ => show win0_5.index t (1 : Fin 2) * 128 ≤ (i 1).val ∧ (i 1).val < win0_5.index t (1 : Fin 2) * 128 + 128; rw [e1]; omega

/-- THE ARRAY AFTER THE REGION: the layer of the arrays the region found. -/
theorem arr (c : Dev nD) : (dat0 V c).arrAt 5 cfg0.N = result V c :=
  (dat0 V c).arrAt_eq_of_cover 5 (result V c) (fun t _ => flushed_eq V c t) (cover)

end Cert.KernelIdeal.Region0

end
-- ==== Proof.Region1.lean ====
/-
  The second layer's region, read as a value: for ANY contents `V` the TensorCore holds when the region is entered,
  the region's result array ends at the hidden layer (two matrix products, the bias, the comparison with zero)
  of the five arrays it stages from `V`. Ten grid points; point t stages rows 5000·t … 5000·t + 4999 of the
  features and of their neighbour average, both weight matrices and the bias row whole, and writes the same rows
  of the result back; the ten row blocks tile the 50000 rows.
-/
import proofs.«170023_j24232205484235_1_alg».proof.Proof.KernelIdealFrame
import proofs.«170023_j24232205484235_1_alg».proof.Proof.Pay

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

-- the TensorCore's buffer contents when the region is entered: everything below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two feature windows and the output window move down
    the rows with the point, block t at rows 5000·t …; the weights and the bias row stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of the block at point t is row 5000·t + p of the array. -/
def row (t : Fin cfg1.N) (p : Fin 5000) : Fin 50000 :=
  ⟨t.val * 5000 + p.val, by have h : t.val < 10 := lt_of_lt_of_eq t.isLt N_1; have := p.isLt; omega⟩

/-- What the region's result array ends holding: the layer of the arrays the region finds. -/
def result (c : Dev nD) : FVec Ideal S50000x128 .f32 :=
  Sage.hidden (V c main_v22) (V c main_v34) (V c main_arg6) (V c main_arg7) (Sage.row128 (V c main_v35))

/-! ## Each window's block, read where the output's rows say -/

theorem blk_h (c : Dev nD) (t : Fin cfg1.N) (p : Fin 5000) (k : Fin 128) :
    (iblk1 V c 0 t : FVec Ideal S5000x128 .f32) (ix2 p k) = (V c main_v22 : FVec Ideal S50000x128 .f32) (ix2 (row t p) k) := by
  obtain ⟨e0, e1, -⟩ := idx_facts t
  show V c main_v22 (((cfg1.win 0).blk t).view.emb (ix2 p k)) = V c main_v22 (ix2 (row t p) k)
  refine congrArg _ (funext fun a => Fin.ext ?_)
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem blk_hn (c : Dev nD) (t : Fin cfg1.N) (p : Fin 5000) (k : Fin 128) :
    (iblk1 V c 1 t : FVec Ideal S5000x128 .f32) (ix2 p k) = (V c main_v34 : FVec Ideal S50000x128 .f32) (ix2 (row t p) k) := by
  obtain ⟨-, -, e0, e1, -⟩ := idx_facts t
  show V c main_v34 (((cfg1.win 1).blk t).view.emb (ix2 p k)) = V c main_v34 (ix2 (row t p) k)
  refine congrArg _ (funext fun a => Fin.ext ?_)
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem blk_ws (c : Dev nD) (t : Fin cfg1.N) (k : Fin 128) (q : Fin 128) :
    (iblk1 V c 2 t : FVec Ideal S128x128 .f32) (ix2 k q) = (V c main_arg6 : FVec Ideal S128x128 .f32) (ix2 k q) := by
  obtain ⟨-, -, -, -, e0, e1, -⟩ := idx_facts t
  show V c main_arg6 (((cfg1.win 2).blk t).view.emb (ix2 k q)) = V c main_arg6 (ix2 k q)
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem blk_wn (c : Dev nD) (t : Fin cfg1.N) (k : Fin 128) (q : Fin 128) :
    (iblk1 V c 3 t : FVec Ideal S128x128 .f32) (ix2 k q) = (V c main_arg7 : FVec Ideal S128x128 .f32) (ix2 k q) := by
  obtain ⟨-, -, -, -, -, -, e0, e1, -⟩ := idx_facts t
  show V c main_arg7 (((cfg1.win 3).blk t).view.emb (ix2 k q)) = V c main_arg7 (ix2 k q)
  refine congrArg _ (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem blk_b (c : Dev nD) (t : Fin cfg1.N) (q : Fin 128) :
    (iblk1 V c 4 t : FVec Ideal S1x128 .f32) (ix2 0 q) = (V c main_v35 : FVec Ideal S1x128 .f32) (ix2 0 q) := by
  obtain ⟨-, -, -, -, -, -, -, -, e0, e1, -⟩ := idx_facts t
  show V c main_v35 (((cfg1.win 4).blk t).view.emb (ix2 0 q)) = V c main_v35 (ix2 0 q)
  refine congrArg _ (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-- Entry (p, q) of the output's block at point t is entry (5000·t + p, q) of the array. -/
theorem emb_out (t : Fin cfg1.N) (p : Fin 5000) (q : Fin 128) :
    ((cfg1.win 5).blk t).view.emb (ix2 p q) = (ix2 (row t p) q : S50000x128.Idx) := by
  obtain ⟨-, -, -, -, -, -, -, -, -, -, e0, e1⟩ := idx_facts t
  refine funext fun a => Fin.ext ?_
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-! ## What a point writes back, and the array after the run -/

/-- WHAT POINT t WRITES BACK is block t of `result`: the body's stored value at (p, q) is the layer's entry at
    row 5000·t + p, the feature blocks read at that row, the weights and the bias whole. -/
theorem flushed_eq (c : Dev nD) (t : Fin cfg1.N) :
    (dat1 V c).flushed 5 t = ((cfg1.win 5).blk t).view.read (Elt Ideal) (result V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = (ix2 p q : S5000x128.Idx) := ⟨j 0, j 1, eq_ix2 j⟩
  show k1_pay1 (F := Ideal) (iblk1 V c 0 t) (iblk1 V c 1 t) (iblk1 V c 2 t) (iblk1 V c 3 t) (iblk1 V c 4 t) (ix2 p q)
      = result V c (((cfg1.win 5).blk t).view.emb (ix2 p q))
  rw [emb_out t p q]
  refine (Pay.pay1_apply (iblk1 V c 0 t) (iblk1 V c 1 t) (iblk1 V c 2 t) (iblk1 V c 3 t) (iblk1 V c 4 t) p q).trans ?_
  unfold result
  rw [Sage.hidden_apply, Sage.row128_apply]
  simp only [blk_h V c t p, blk_hn V c t p, blk_ws V c t, blk_wn V c t, blk_b V c t]

/-- An index of the array is in point t's block iff each coordinate is in the block's range on its axis. -/
theorem mem_blk (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v36).slice (win1_5.rect t)).set ↔ _
  rw [View.set_slice_whole, Rect.mem_set_unit]
  exact Iff.rfl

/-- Every row lies in the block of the point `row / 5000`: the ten blocks tile the array. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, by rw [show cfg1.N = 10 from N_1]; omega⟩
  obtain ⟨-, -, -, -, -, -, -, -, -, -, e0, e1⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 128 ≤ (i 1).val ∧ (i 1).val < win1_5.index t (1 : Fin 2) * 128 + 128; rw [e1]; omega

/-- THE ARRAY AFTER THE REGION: the layer of the arrays the region found. -/
theorem arr (c : Dev nD) : (dat1 V c).arrAt 5 cfg1.N = result V c :=
  (dat1 V c).arrAt_eq_of_cover 5 (result V c) (fun t _ => flushed_eq V c t) (cover)

end Cert.KernelIdeal.Region1

end
-- ==== Proof.Region2.lean ====
/-
  The last layer's region, read as a value: for ANY contents `V` the TensorCore holds when the region is entered,
  the region's result array ends at the last layer (two matrix products and the bias, 64 output features)
  of the five arrays it stages from `V`. Ten grid points; point t stages rows 5000·t … 5000·t + 4999 of the
  features and of their neighbour average, both weight matrices and the bias row whole, and writes the same rows
  of the result back; the ten row blocks tile the 50000 rows.
-/
import proofs.«170023_j24232205484235_1_alg».proof.Proof.KernelIdealFrame
import proofs.«170023_j24232205484235_1_alg».proof.Proof.Pay

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP

-- the TensorCore's buffer contents when the region is entered: everything below holds for any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the ten grid points: the two feature windows and the output window move down
    the rows with the point, block t at rows 5000·t …; the weights and the bias row stay at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of the block at point t is row 5000·t + p of the array. -/
def row (t : Fin cfg2.N) (p : Fin 5000) : Fin 50000 :=
  ⟨t.val * 5000 + p.val, by have h : t.val < 10 := lt_of_lt_of_eq t.isLt N_2; have := p.isLt; omega⟩

/-- What the region's result array ends holding: the layer of the arrays the region finds. -/
def result (c : Dev nD) : FVec Ideal S50000x64 .f32 :=
  Sage.dense64 (V c main_v36) (V c main_v48) (V c main_arg9) (V c main_arg10) (Sage.row64 (V c main_v49))

/-! ## Each window's block, read where the output's rows say -/

theorem blk_h (c : Dev nD) (t : Fin cfg2.N) (p : Fin 5000) (k : Fin 128) :
    (iblk2 V c 0 t : FVec Ideal S5000x128 .f32) (ix2 p k) = (V c main_v36 : FVec Ideal S50000x128 .f32) (ix2 (row t p) k) := by
  obtain ⟨e0, e1, -⟩ := idx_facts t
  show V c main_v36 (((cfg2.win 0).blk t).view.emb (ix2 p k)) = V c main_v36 (ix2 (row t p) k)
  refine congrArg _ (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * k.val = k.val; rw [e1]; omega

theorem blk_hn (c : Dev nD) (t : Fin cfg2.N) (p : Fin 5000) (k : Fin 128) :
    (iblk2 V c 1 t : FVec Ideal S5000x128 .f32) (ix2 p k) = (V c main_v48 : FVec Ideal S50000x128 .f32) (ix2 (row t p) k) := by
  obtain ⟨-, -, e0, e1, -⟩ := idx_facts t
  show V c main_v48 (((cfg2.win 1).blk t).view.emb (ix2 p k)) = V c main_v48 (ix2 (row t p) k)
  refine congrArg _ (funext fun a => Fin.ext ?_)
  match a with
  | ⟨0, _⟩ => show win2_1.index t (0 : Fin 2) * 5000 + 1 * p.val = t.val * 5000 + p.val; rw [e0]; omega
  | ⟨1, _⟩ => show win2_1.index t (1 : Fin 2) * 128 + 1 * k.val = k.val; rw [e1]; omega

theorem blk_ws (c : Dev nD) (t : Fin cfg2.N) (k : Fin 128) (q : Fin 64) :
    (iblk2 V c 2 t : FVec Ideal S128x64 .f32) (ix2 k q) = (V c main_arg9 : FVec Ideal S128x64 .f32) (ix2 k q) := by
  obtain ⟨-, -, -, -, e0, e1, -⟩ := idx_facts t
  show V c main_arg9 (((cfg2.win 2).blk t).view.emb (ix2 k q)) = V c main_arg9 (ix2 k q)
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 64 + 1 * q.val = q.val; rw [e1]; omega

theorem blk_wn (c : Dev nD) (t : Fin cfg2.N) (k : Fin 128) (q : Fin 64) :
    (iblk2 V c 3 t : FVec Ideal S128x64 .f32) (ix2 k q) = (V c main_arg10 : FVec Ideal S128x64 .f32) (ix2 k q) := by
  obtain ⟨-, -, -, -, -, -, e0, e1, -⟩ := idx_facts t
  show V c main_arg10 (((cfg2.win 3).blk t).view.emb (ix2 k q)) = V c main_arg10 (ix2 k q)
  refine congrArg _ (funext fun a => Fin.ext ?_)
  match a with
  | ⟨0, _⟩ => show win2_3.index t (0 : Fin 2) * 128 + 1 * k.val = k.val; rw [e0]; omega
  | ⟨1, _⟩ => show win2_3.index t (1 : Fin 2) * 64 + 1 * q.val = q.val; rw [e1]; omega

theorem blk_b (c : Dev nD) (t : Fin cfg2.N) (q : Fin 64) :
    (iblk2 V c 4 t : FVec Ideal S1x64 .f32) (ix2 0 q) = (V c main_v49 : FVec Ideal S1x64 .f32) (ix2 0 q) := by
  obtain ⟨-, -, -, -, -, -, -, -, e0, e1, -⟩ := idx_facts t
  show V c main_v49 (((cfg2.win 4).blk t).view.emb (ix2 0 q)) = V c main_v49 (ix2 0 q)
  refine congrArg _ (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- Entry (p, q) of the output's block at point t is entry (5000·t + p, q) of the array. -/
theorem emb_out (t : Fin cfg2.N) (p : Fin 5000) (q : Fin 64) :
    ((cfg2.win 5).blk t).view.emb (ix2 p q) = (ix2 (row t p) q : S50000x64.Idx) := by
  obtain ⟨-, -, -, -, -, -, -, -, -, -, e0, e1⟩ := idx_facts t
  refine funext fun a => Fin.ext ?_
  match a with
  | ⟨0, _⟩ => show win2_5.index t (0 : Fin 2) * 5000 + 1 * p.val = t.val * 5000 + p.val; rw [e0]; omega
  | ⟨1, _⟩ => show win2_5.index t (1 : Fin 2) * 64 + 1 * q.val = q.val; rw [e1]; omega

/-! ## What a point writes back, and the array after the run -/

/-- WHAT POINT t WRITES BACK is block t of `result`: the body's stored value at (p, q) is the layer's entry at
    row 5000·t + p, the feature blocks read at that row, the weights and the bias whole. -/
theorem flushed_eq (c : Dev nD) (t : Fin cfg2.N) :
    (dat2 V c).flushed 5 t = ((cfg2.win 5).blk t).view.read (Elt Ideal) (result V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x64) hz, View.ld_unit_zero (S := S1x64) hz]
  funext j
  obtain ⟨p, q, rfl⟩ : ∃ (p : Fin 5000) (q : Fin 64), j = (ix2 p q : S5000x64.Idx) := ⟨j 0, j 1, eq_ix2 j⟩
  show k2_pay1 (F := Ideal) (iblk2 V c 0 t) (iblk2 V c 1 t) (iblk2 V c 2 t) (iblk2 V c 3 t) (iblk2 V c 4 t) (ix2 p q)
      = result V c (((cfg2.win 5).blk t).view.emb (ix2 p q))
  rw [emb_out t p q]
  refine (Pay.pay2_apply (iblk2 V c 0 t) (iblk2 V c 1 t) (iblk2 V c 2 t) (iblk2 V c 3 t) (iblk2 V c 4 t) p q).trans ?_
  unfold result
  rw [Sage.dense64_apply, Sage.row64_apply]
  simp only [blk_h V c t p, blk_hn V c t p, blk_ws V c t, blk_wn V c t, blk_b V c t]

/-- An index of the array is in point t's block iff each coordinate is in the block's range on its axis. -/
theorem mem_blk (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v50).slice (win2_5.rect t)).set ↔ _
  rw [View.set_slice_whole, Rect.mem_set_unit]
  exact Iff.rfl

/-- Every row lies in the block of the point `row / 5000`: the ten blocks tile the array. -/
theorem cover (i : S50000x64.Idx) : ∃ t : Fin cfg2.N, (cfg2.win 5).flush t = true ∧ i ∈ ((cfg2.win 5).blk t).view.set := by
  have hi0 : (i 0).val < 50000 := (i 0).isLt
  have hi1 : (i 1).val < 64 := (i 1).isLt
  let t : Fin cfg2.N := ⟨(i 0).val / 5000, by rw [show cfg2.N = 10 from N_2]; omega⟩
  obtain ⟨-, -, -, -, -, -, -, -, -, -, e0, e1⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; rw [e0, ht]; omega
  | ⟨1, _⟩ => show win2_5.index t (1 : Fin 2) * 64 ≤ (i 1).val ∧ (i 1).val < win2_5.index t (1 : Fin 2) * 64 + 64; rw [e1]; omega

/-- THE ARRAY AFTER THE REGION: the layer of the arrays the region found. -/
theorem arr (c : Dev nD) : (dat2 V c).arrAt 5 cfg2.N = result V c :=
  (dat2 V c).arrAt_eq_of_cover 5 (result V c) (fun t _ => flushed_eq V c t) (cover)

end Cert.KernelIdeal.Region2

end
-- ==== Proof.AggK.lean ====
/-
  The host operations the kernel's program runs around its three calls, named: the in-degree column and the
  neighbour average of a feature array. They are written here exactly as the program spells them, over its own
  dimension records; nothing in the certificate opens a gather or a scatter-add.
-/
import proofs.«170023_j24232205484235_1_alg».proof.Proof.Gen.KernelIdeal

noncomputable section

namespace Cert.KernelIdeal.Agg

open Idealize.ShloMosaic Cert.KernelIdeal Cert.KernelIdeal.Gen

variable {F : FTy → Type} [FloatOps F]

/-- One over the larger of a node's in-degree and one, as a column: the in-degree counts the edges that end at the
    node (a one added at each edge's end node into zeros). -/
def invDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 dst) (broadcastInDim S800000 ![] bcast_S_S800000 (constant S_ .f32 0x3F800000#32)))
        (broadcastInDim S50000 ![] bcast_S_S50000 (constant S_ .f32 0x3F800000#32))))

/-- The neighbour average of a feature array: each edge carries its start node's row (a negative start index counted
    from the end) to its end node, the rows arriving at a node are added up from zeros, and the sum is scaled by the
    node's column entry `col`. -/
def neigh (src dst : (⟨S800000, .i32⟩ : BufTy).Contents (Elt F)) (col : (⟨S50000x1, .f32⟩ : BufTy).Contents (Elt F))
    (h : (⟨S50000x128, .f32⟩ : BufTy).Contents (Elt F)) : (⟨S50000x128, .f32⟩ : BufTy).Contents (Elt F) :=
  mulf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 col)

end Cert.KernelIdeal.Agg

end
-- ==== Proof.Pass.lean ====
/-
  The argument buffers that nothing writes, at the boundaries of @main where they are read.

  The edge lists (main_arg1, main_arg2) and the weights and biases of the later layers are written by no host
  operation and are no region's result array, so at every boundary of the run they hold what the launch memory
  held: after the first stretch of host operations (keep1), after the first region (keep2), after the second
  stretch (keep3), after the second region (keep4). One block per buffer; every block is the same two steps, a
  stretch read back operation by operation and a region that replaces only its own arrays.
-/
import proofs.«170023_j24232205484235_1_alg».proof.Proof.KernelIdealFrame
import Idealize.ShloMosaic.Lib.StableHlo.Run
import Idealize.ShloMosaic.PureOps.Ideal

set_option maxRecDepth 16384

noncomputable section

namespace Cert.KernelIdeal.Pass

open Idealize.ShloMosaic Idealize.ShloMosaic.TcCoe Idealize.ShloMosaic.StableHlo Idealize.SL.Sem
open Cert.KernelIdeal Cert.KernelIdeal.Gen Cert.KernelIdeal.GenP

variable (m : (ℓ : Loc nD τ sig) → Buf (Elt Ideal) ℓ) (ρ : Dev nD → PrngReg) (c : Dev nD)

theorem keep1_main_arg1 : W1 m ρ c (Proc.devRef .tc main_arg1) = m ((c.tc : Thread nD τ).loc main_arg1) := by
  show StableHlo.after hostOps0 (W0 m ρ c) (Proc.devRef .tc main_arg1) = _
  dsimp only [hostOps0]
  after_results

theorem keep2_main_arg1 : W2 m ρ c (Proc.devRef .tc main_arg1) = m ((c.tc : Thread nD τ).loc main_arg1) :=
  (W2_of_ne m ρ c main_arg1 (by decide)).trans (keep1_main_arg1 m ρ c)

theorem keep1_main_arg2 : W1 m ρ c (Proc.devRef .tc main_arg2) = m ((c.tc : Thread nD τ).loc main_arg2) := by
  show StableHlo.after hostOps0 (W0 m ρ c) (Proc.devRef .tc main_arg2) = _
  dsimp only [hostOps0]
  after_results

theorem keep2_main_arg2 : W2 m ρ c (Proc.devRef .tc main_arg2) = m ((c.tc : Thread nD τ).loc main_arg2) :=
  (W2_of_ne m ρ c main_arg2 (by decide)).trans (keep1_main_arg2 m ρ c)

theorem keep1_main_arg6 : W1 m ρ c (Proc.devRef .tc main_arg6) = m ((c.tc : Thread nD τ).loc main_arg6) := by
  show StableHlo.after hostOps0 (W0 m ρ c) (Proc.devRef .tc main_arg6) = _
  dsimp only [hostOps0]
  after_results

theorem keep2_main_arg6 : W2 m ρ c (Proc.devRef .tc main_arg6) = m ((c.tc : Thread nD τ).loc main_arg6) :=
  (W2_of_ne m ρ c main_arg6 (by decide)).trans (keep1_main_arg6 m ρ c)

theorem keep1_main_arg7 : W1 m ρ c (Proc.devRef .tc main_arg7) = m ((c.tc : Thread nD τ).loc main_arg7) := by
  show StableHlo.after hostOps0 (W0 m ρ c) (Proc.devRef .tc main_arg7) = _
  dsimp only [hostOps0]
  after_results

theorem keep2_main_arg7 : W2 m ρ c (Proc.devRef .tc main_arg7) = m ((c.tc : Thread nD τ).loc main_arg7) :=
  (W2_of_ne m ρ c main_arg7 (by decide)).trans (keep1_main_arg7 m ρ c)

theorem keep1_main_arg8 : W1 m ρ c (Proc.devRef .tc main_arg8) = m ((c.tc : Thread nD τ).loc main_arg8) := by
  show StableHlo.after hostOps0 (W0 m ρ c) (Proc.devRef .tc main_arg8) = _
  dsimp only [hostOps0]
  after_results

theorem keep2_main_arg8 : W2 m ρ c (Proc.devRef .tc main_arg8) = m ((c.tc : Thread nD τ).loc main_arg8) :=
  (W2_of_ne m ρ c main_arg8 (by decide)).trans (keep1_main_arg8 m ρ c)

theorem keep1_main_arg9 : W1 m ρ c (Proc.devRef .tc main_arg9) = m ((c.tc : Thread nD τ).loc main_arg9) := by
  show StableHlo.after hostOps0 (W0 m ρ c) (Proc.devRef .tc main_arg9) = _
  dsimp only [hostOps0]
  after_results

theorem keep2_main_arg9 : W2 m ρ c (Proc.devRef .tc main_arg9) = m ((c.tc : Thread nD τ).loc main_arg9) :=
  (W2_of_ne m ρ c main_arg9 (by decide)).trans (keep1_main_arg9 m ρ c)

theorem keep1_main_arg10 : W1 m ρ c (Proc.devRef .tc main_arg10) = m ((c.tc : Thread nD τ).loc main_arg10) := by
  show StableHlo.after hostOps0 (W0 m ρ c) (Proc.devRef .tc main_arg10) = _
  dsimp only [hostOps0]
  after_results

theorem keep2_main_arg10 : W2 m ρ c (Proc.devRef .tc main_arg10) = m ((c.tc : Thread nD τ).loc main_arg10) :=
  (W2_of_ne m ρ c main_arg10 (by decide)).trans (keep1_main_arg10 m ρ c)

theorem keep1_main_arg11 : W1 m ρ c (Proc.devRef .tc main_arg11) = m ((c.tc : Thread nD τ).loc main_arg11) := by
  show StableHlo.after hostOps0 (W0 m ρ c) (Proc.devRef .tc main_arg11) = _
  dsimp only [hostOps0]
  after_results

theorem keep2_main_arg11 : W2 m ρ c (Proc.devRef .tc main_arg11) = m ((c.tc : Thread nD τ).loc main_arg11) :=
  (W2_of_ne m ρ c main_arg11 (by decide)).trans (keep1_main_arg11 m ρ c)

theorem keep3_main_arg1 : W3 m ρ c (Proc.devRef .tc main_arg1) = m ((c.tc : Thread nD τ).loc main_arg1) := by
  refine Eq.trans ?_ (keep2_main_arg1 m ρ c)
  show StableHlo.after hostOps1 (W2 m ρ c) (Proc.devRef .tc main_arg1) = _
  dsimp only [hostOps1]
  after_results

theorem keep4_main_arg1 : W4 m ρ c (Proc.devRef .tc main_arg1) = m ((c.tc : Thread nD τ).loc main_arg1) :=
  (W4_of_ne m ρ c main_arg1 (by decide)).trans (keep3_main_arg1 m ρ c)

theorem keep3_main_arg2 : W3 m ρ c (Proc.devRef .tc main_arg2) = m ((c.tc : Thread nD τ).loc main_arg2) := by
  refine Eq.trans ?_ (keep2_main_arg2 m ρ c)
  show StableHlo.after hostOps1 (W2 m ρ c) (Proc.devRef .tc main_arg2) = _
  dsimp only [hostOps1]
  after_results

theorem keep4_main_arg2 : W4 m ρ c (Proc.devRef .tc main_arg2) = m ((c.tc : Thread nD τ).loc main_arg2) :=
  (W4_of_ne m ρ c main_arg2 (by decide)).trans (keep3_main_arg2 m ρ c)

theorem keep3_main_arg9 : W3 m ρ c (Proc.devRef .tc main_arg9) = m ((c.tc : Thread nD τ).loc main_arg9) := by
  refine Eq.trans ?_ (keep2_main_arg9 m ρ c)
  show StableHlo.after hostOps1 (W2 m ρ c) (Proc.devRef .tc main_arg9) = _
  dsimp only [hostOps1]
  after_results

theorem keep4_main_arg9 : W4 m ρ c (Proc.devRef .tc main_arg9) = m ((c.tc : Thread nD τ).loc main_arg9) :=
  (W4_of_ne m ρ c main_arg9 (by decide)).trans (keep3_main_arg9 m ρ c)

theorem keep3_main_arg10 : W3 m ρ c (Proc.devRef .tc main_arg10) = m ((c.tc : Thread nD τ).loc main_arg10) := by
  refine Eq.trans ?_ (keep2_main_arg10 m ρ c)
  show StableHlo.after hostOps1 (W2 m ρ c) (Proc.devRef .tc main_arg10) = _
  dsimp only [hostOps1]
  after_results

theorem keep4_main_arg10 : W4 m ρ c (Proc.devRef .tc main_arg10) = m ((c.tc : Thread nD τ).loc main_arg10) :=
  (W4_of_ne m ρ c main_arg10 (by decide)).trans (keep3_main_arg10 m ρ c)

theorem keep3_main_arg11 : W3 m ρ c (Proc.devRef .tc main_arg11) = m ((c.tc : Thread nD τ).loc main_arg11) := by
  refine Eq.trans ?_ (keep2_main_arg11 m ρ c)
  show StableHlo.after hostOps1 (W2 m ρ c) (Proc.devRef .tc main_arg11) = _
  dsimp only [hostOps1]
  after_results

theorem keep4_main_arg11 : W4 m ρ c (Proc.devRef .tc main_arg11) = m ((c.tc : Thread nD τ).loc main_arg11) :=
  (W4_of_ne m ρ c main_arg11 (by decide)).trans (keep3_main_arg11 m ρ c)

end Cert.KernelIdeal.Pass

end
-- ==== Proof.Chain.lean ====
/-
  The kernel program's result array as a function of its arguments, at the exact values.

  The run's buffer contents at each boundary are a fold through @main: a stretch of host operations applies its
  operations, a region replaces its result array by what its ten write-backs leave. Walking that fold back from
  the last boundary: the last region leaves the last layer of the contents it was entered with; those are the
  second layer's result, its neighbour average (the host operations between the regions) and the last layer's
  weights and bias; and so on down to the launch memory. The in-degree column is computed once, before the first
  region, and every later neighbour average reads it where it was left.
-/
import proofs.«170023_j24232205484235_1_alg».proof.Proof.KernelIdealFrame
import proofs.«170023_j24232205484235_1_alg».proof.Proof.Region0
import proofs.«170023_j24232205484235_1_alg».proof.Proof.Region1
import proofs.«170023_j24232205484235_1_alg».proof.Proof.Region2
import proofs.«170023_j24232205484235_1_alg».proof.Proof.AggK
import proofs.«170023_j24232205484235_1_alg».proof.Proof.Pass
import Idealize.ShloMosaic.Lib.StableHlo.Run

set_option maxRecDepth 16384

noncomputable section

namespace Cert.KernelIdeal.Chain

open Idealize.ShloMosaic Idealize.ShloMosaic.TcCoe Idealize.ShloMosaic.StableHlo Idealize.SL.Sem
open Cert.KernelIdeal Cert.KernelIdeal.Gen Cert.KernelIdeal.GenP Cert.KernelIdeal.Pass

variable (m : (ℓ : Loc nD τ sig) → Buf (Elt Ideal) ℓ) (ρ : Dev nD → PrngReg) (c : Dev nD)

/-! ## The values along the way, as functions of the launch memory -/

/-- The neighbour average of a feature array over this launch's edge lists and in-degrees. -/
def nb (h : FVec Ideal S50000x128 .f32) : FVec Ideal S50000x128 .f32 :=
  Agg.neigh (F := Ideal) (m ((c.tc : Thread nD τ).loc main_arg1)) (m ((c.tc : Thread nD τ).loc main_arg2)) (Agg.invDeg (m ((c.tc : Thread nD τ).loc main_arg2))) h

/-- The first layer's result. -/
def h1 : FVec Ideal S50000x128 .f32 :=
  Sage.hidden (m ((c.tc : Thread nD τ).loc main_arg0)) (nb m c (m ((c.tc : Thread nD τ).loc main_arg0))) (m ((c.tc : Thread nD τ).loc main_arg3)) (m ((c.tc : Thread nD τ).loc main_arg4)) (m ((c.tc : Thread nD τ).loc main_arg5))

/-- The second layer's result. -/
def h2 : FVec Ideal S50000x128 .f32 :=
  Sage.hidden (h1 m c) (nb m c (h1 m c)) (m ((c.tc : Thread nD τ).loc main_arg6)) (m ((c.tc : Thread nD τ).loc main_arg7)) (m ((c.tc : Thread nD τ).loc main_arg8))

/-! ## The in-degree column: computed before the first region, untouched afterwards -/

theorem col1 : W1 m ρ c (Proc.devRef .tc main_v8) = Agg.invDeg (m ((c.tc : Thread nD τ).loc main_arg2)) := by
  show StableHlo.after hostOps0 (W0 m ρ c) (Proc.devRef .tc main_v8) = _
  dsimp only [hostOps0]
  after_results
  rfl

theorem col2 : W2 m ρ c (Proc.devRef .tc main_v8) = Agg.invDeg (m ((c.tc : Thread nD τ).loc main_arg2)) :=
  (W2_of_ne m ρ c main_v8 (by decide)).trans (col1 m ρ c)

theorem col3 : W3 m ρ c (Proc.devRef .tc main_v8) = Agg.invDeg (m ((c.tc : Thread nD τ).loc main_arg2)) := by
  refine Eq.trans ?_ (col2 m ρ c)
  show StableHlo.after hostOps1 (W2 m ρ c) (Proc.devRef .tc main_v8) = _
  dsimp only [hostOps1]
  after_results

theorem col4 : W4 m ρ c (Proc.devRef .tc main_v8) = Agg.invDeg (m ((c.tc : Thread nD τ).loc main_arg2)) :=
  (W4_of_ne m ρ c main_v8 (by decide)).trans (col3 m ρ c)

/-! ## The first region: entered after the first stretch of host operations -/

theorem in0_h : V1 m ρ c main_arg0 = m ((c.tc : Thread nD τ).loc main_arg0) := by
  show StableHlo.after hostOps0 (W0 m ρ c) (Proc.devRef .tc main_arg0) = _
  dsimp only [hostOps0]
  after_results

theorem in0_ws : V1 m ρ c main_arg3 = m ((c.tc : Thread nD τ).loc main_arg3) := by
  show StableHlo.after hostOps0 (W0 m ρ c) (Proc.devRef .tc main_arg3) = _
  dsimp only [hostOps0]
  after_results

theorem in0_wn : V1 m ρ c main_arg4 = m ((c.tc : Thread nD τ).loc main_arg4) := by
  show StableHlo.after hostOps0 (W0 m ρ c) (Proc.devRef .tc main_arg4) = _
  dsimp only [hostOps0]
  after_results

/-- The neighbour average the first region stages is that of the input features. -/
theorem in0_hn : V1 m ρ c main_v20 = nb m c (m ((c.tc : Thread nD τ).loc main_arg0)) := by
  show StableHlo.after hostOps0 (W0 m ρ c) (Proc.devRef .tc main_v20) = _
  dsimp only [hostOps0]
  after_results_simp
  rfl

/-- The bias it stages is the first bias as one row. -/
theorem in0_b : V1 m ρ c main_v21 = shapeCast S1x128 (m ((c.tc : Thread nD τ).loc main_arg5)) shapeCasts_S128_S1x128 := by
  show StableHlo.after hostOps0 (W0 m ρ c) (Proc.devRef .tc main_v21) = _
  dsimp only [hostOps0]
  after_results
  rfl

/-- AFTER THE FIRST REGION its result array holds the first layer's result. -/
theorem out0 : W2 m ρ c (Proc.devRef .tc main_v22) = h1 m c := by
  refine (W2_arr m ρ c 5).trans ((Region0.arr (V1 m ρ) c).trans ?_)
  unfold Region0.result h1
  rw [in0_h, in0_hn, in0_ws, in0_wn, in0_b, Sage.row128_reshape]

/-! ## The second region: entered after the second stretch -/

theorem in1_h : V3 m ρ c main_v22 = h1 m c := by
  refine Eq.trans ?_ (out0 m ρ c)
  show StableHlo.after hostOps1 (W2 m ρ c) (Proc.devRef .tc main_v22) = _
  dsimp only [hostOps1]
  after_results

theorem in1_ws : V3 m ρ c main_arg6 = m ((c.tc : Thread nD τ).loc main_arg6) := by
  refine Eq.trans ?_ (keep2_main_arg6 m ρ c)
  show StableHlo.after hostOps1 (W2 m ρ c) (Proc.devRef .tc main_arg6) = _
  dsimp only [hostOps1]
  after_results

theorem in1_wn : V3 m ρ c main_arg7 = m ((c.tc : Thread nD τ).loc main_arg7) := by
  refine Eq.trans ?_ (keep2_main_arg7 m ρ c)
  show StableHlo.after hostOps1 (W2 m ρ c) (Proc.devRef .tc main_arg7) = _
  dsimp only [hostOps1]
  after_results

/-- The neighbour average the second region stages is that of the first layer's result, over the same edge lists and
    the in-degree column left before the first region. -/
theorem in1_hn : V3 m ρ c main_v34 = nb m c (h1 m c) := by
  show StableHlo.after hostOps1 (W2 m ρ c) (Proc.devRef .tc main_v34) = _
  dsimp only [hostOps1]
  after_results_simp
  rw [keep2_main_arg1, keep2_main_arg2, col2, out0]
  rfl

theorem in1_b : V3 m ρ c main_v35 = shapeCast S1x128 (m ((c.tc : Thread nD τ).loc main_arg8)) shapeCasts_S128_S1x128 := by
  show StableHlo.after hostOps1 (W2 m ρ c) (Proc.devRef .tc main_v35) = _
  dsimp only [hostOps1]
  after_results
  rw [keep2_main_arg8]
  rfl

/-- AFTER THE SECOND REGION its result array holds the second layer's result. -/
theorem out1 : W4 m ρ c (Proc.devRef .tc main_v36) = h2 m c := by
  refine (W4_arr m ρ c 5).trans ((Region1.arr (V3 m ρ) c).trans ?_)
  unfold Region1.result h2
  rw [in1_h, in1_hn, in1_ws, in1_wn, in1_b, Sage.row128_reshape]

/-! ## The last region: entered after the third stretch -/

theorem in2_h : V5 m ρ c main_v36 = h2 m c := by
  refine Eq.trans ?_ (out1 m ρ c)
  show StableHlo.after hostOps2 (W4 m ρ c) (Proc.devRef .tc main_v36) = _
  dsimp only [hostOps2]
  after_results

theorem in2_ws : V5 m ρ c main_arg9 = m ((c.tc : Thread nD τ).loc main_arg9) := by
  refine Eq.trans ?_ (keep4_main_arg9 m ρ c)
  show StableHlo.after hostOps2 (W4 m ρ c) (Proc.devRef .tc main_arg9) = _
  dsimp only [hostOps2]
  after_results

theorem in2_wn : V5 m ρ c main_arg10 = m ((c.tc : Thread nD τ).loc main_arg10) := by
  refine Eq.trans ?_ (keep4_main_arg10 m ρ c)
  show StableHlo.after hostOps2 (W4 m ρ c) (Proc.devRef .tc main_arg10) = _
  dsimp only [hostOps2]
  after_results

/-- The neighbour average the last region stages is that of the second layer's result. -/
theorem in2_hn : V5 m ρ c main_v48 = nb m c (h2 m c) := by
  show StableHlo.after hostOps2 (W4 m ρ c) (Proc.devRef .tc main_v48) = _
  dsimp only [hostOps2]
  after_results_simp
  rw [keep4_main_arg1, keep4_main_arg2, col4, out1]
  rfl

theorem in2_b : V5 m ρ c main_v49 = shapeCast S1x64 (m ((c.tc : Thread nD τ).loc main_arg11)) shapeCasts_S64_S1x64 := by
  show StableHlo.after hostOps2 (W4 m ρ c) (Proc.devRef .tc main_v49) = _
  dsimp only [hostOps2]
  after_results
  rw [keep4_main_arg11]
  rfl

/-! ## The result -/

/-- AFTER THE LAST REGION the program's result array holds the network of the launch memory's arguments, over the
    neighbour average `nb`. -/
theorem result : W6 m ρ c (Proc.devRef .tc main_v50)
    = Sage.net (nb m c) (m ((c.tc : Thread nD τ).loc main_arg0)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  refine (W6_arr m ρ c 5).trans ((Region2.arr (V5 m ρ) c).trans ?_)
  unfold Region2.result
  rw [in2_h, in2_hn, in2_ws, in2_wn, in2_b, Sage.row64_reshape]
  rfl

end Cert.KernelIdeal.Chain

end
-- ==== Proof.AggR.lean ====
/-
  The host operations the reference runs before each layer's matrix products, named: the in-degree column and the
  neighbour average of a feature array, written exactly as the reference spells them, over its own dimension
  records; and, since the two programs' records hold the same dimension numbers, the statement that these are the
  kernel program's functions of the same names.
-/
import proofs.«170023_j24232205484235_1_alg».proof.Proof.Gen.ReferenceIdeal
import proofs.«170023_j24232205484235_1_alg».proof.Proof.AggK

noncomputable section

namespace Cert.ReferenceIdeal.Agg

open Idealize.ShloMosaic Cert.ReferenceIdeal Cert.ReferenceIdeal.Gen

variable {F : FTy → Type} [FloatOps F]

/-- One over the larger of a node's in-degree and one, as a column: the in-degree counts the edges that end at the
    node (a one added at each edge's end node into zeros). -/
def invDeg (dst : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf
        (Host.scatterAdd scatter_S50000_S800000x1_S800000_n_0_0_1 (broadcastInDim S50000 ![] bcast_S_S50000 (constant S_ .f32 0x00000000#32))
          (broadcastInDim S800000x1 ![0] bcast_S800000_S800000x1_0 dst) (broadcastInDim S800000 ![] bcast_S_S800000 (constant S_ .f32 0x3F800000#32)))
        (broadcastInDim S50000 ![] bcast_S_S50000 (constant S_ .f32 0x3F800000#32))))

/-- The neighbour average of a feature array: each edge carries its start node's row (a negative start index counted
    from the end) to its end node, the rows arriving at a node are added up from zeros, and the sum is scaled by the
    node's column entry `col`. -/
def neigh (src dst : (⟨S800000, .i32⟩ : BufTy).Contents (Elt F)) (col : (⟨S50000x1, .f32⟩ : BufTy).Contents (Elt F))
    (h : (⟨S50000x128, .f32⟩ : BufTy).Contents (Elt F)) : (⟨S50000x128, .f32⟩ : BufTy).Contents (Elt F) :=
  mulf
    (Host.scatterAdd scatter_S50000x128_S800000x1_S800000x128_1_0_0_1 (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x128 ![0, 1] bcast_S50000x1_S50000x128_0_1 col)

/-- The two programs' in-degree columns are one function: their dimension records agree field by field. -/
theorem invDeg_eq (dst : (⟨S800000, .i32⟩ : BufTy).Contents (Elt F)) :
    Cert.KernelIdeal.Agg.invDeg (F := F) dst = invDeg (F := F) dst := rfl

/-- The two programs' neighbour averages are one function. -/
theorem neigh_eq (src dst : (⟨S800000, .i32⟩ : BufTy).Contents (Elt F)) (col : (⟨S50000x1, .f32⟩ : BufTy).Contents (Elt F))
    (h : (⟨S50000x128, .f32⟩ : BufTy).Contents (Elt F)) :
    Cert.KernelIdeal.Agg.neigh (F := F) src dst col h = neigh (F := F) src dst col h := rfl

end Cert.ReferenceIdeal.Agg

end
-- ==== Proof.RefValue.lean ====
/-
  The reference's result, read layer by layer at the exact values.

  The reference is one host program: for each of the three layers it computes the neighbour average of the current
  features (the same gather, scatter-add and in-degree scaling every time), two matrix products with the layer's
  weights, their sum, the bias repeated down the rows, and (the first two layers) the larger of that and zero.
  Each stage of that program is named in the generated stage module; here the stages of one layer are read at an
  entry (n, j) and recognised as the specification's layer, the three neighbour-average stages as ONE function of
  the features they are applied to, and the whole as the specification's network over that function.
-/
import proofs.«170023_j24232205484235_1_alg».proof.Proof.Gen.ReferenceIdeal.Read
import proofs.«170023_j24232205484235_1_alg».proof.Proof.Spec
import proofs.«170023_j24232205484235_1_alg».proof.Proof.AggR

noncomputable section

namespace Cert.ReferenceIdeal.RefValue

open Idealize.ShloMosaic Idealize.ShloMosaic.ValueIdx Cert.ReferenceIdeal Cert.ReferenceIdeal.Gen Cert.ReferenceIdeal.Read

/-! ## The three neighbour averages are one function of the features -/

section Stages

variable {F : FTy → Type} [FloatOps F]

/-- Before the first layer: of the input features. -/
theorem hn0_eq (x0 : (⟨S50000x128, .f32⟩ : BufTy).Contents (Elt F)) (x1 x2 : (⟨S800000, .i32⟩ : BufTy).Contents (Elt F)) :
    val_main_v20 (F := F) x0 x1 x2 = Agg.neigh x1 x2 (Agg.invDeg x2) x0 := rfl

/-- Before the second layer: of the first layer's result. -/
theorem hn1_eq (x0 : (⟨S50000x128, .f32⟩ : BufTy).Contents (Elt F)) (x1 x2 : (⟨S800000, .i32⟩ : BufTy).Contents (Elt F)) (x3 x4 : (⟨S128x128, .f32⟩ : BufTy).Contents (Elt F)) (x5 : (⟨S128, .f32⟩ : BufTy).Contents (Elt F)) :
    val_main_v40 (F := F) x0 x1 x2 x3 x4 x5 = Agg.neigh x1 x2 (Agg.invDeg x2) (val_main_v27 (F := F) x0 x1 x2 x3 x4 x5) := rfl

/-- Before the last layer: of the second layer's result. -/
theorem hn2_eq (x0 : (⟨S50000x128, .f32⟩ : BufTy).Contents (Elt F)) (x1 x2 : (⟨S800000, .i32⟩ : BufTy).Contents (Elt F)) (x3 x4 : (⟨S128x128, .f32⟩ : BufTy).Contents (Elt F)) (x5 : (⟨S128, .f32⟩ : BufTy).Contents (Elt F))
    (x6 x7 : (⟨S128x128, .f32⟩ : BufTy).Contents (Elt F)) (x8 : (⟨S128, .f32⟩ : BufTy).Contents (Elt F)) :
    val_main_v60 (F := F) x0 x1 x2 x3 x4 x5 x6 x7 x8
      = Agg.neigh x1 x2 (Agg.invDeg x2) (val_main_v47 (F := F) x0 x1 x2 x3 x4 x5 x6 x7 x8) := rfl

end Stages

/-! ## Each layer, entry by entry -/

/-- The first layer: entry (n, j) is row n of the features against column j of `x3`, plus row n of their neighbour
    average against column j of `x4`, plus `x5 j`, and the larger of that and zero. -/
theorem layer0 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal)) :
    val_main_v27 (F := Ideal) x0 x1 x2 x3 x4 x5 = Sage.hidden x0 (val_main_v20 (F := Ideal) x0 x1 x2) x3 x4 x5 := by
  funext i
  obtain ⟨n, j, rfl⟩ : ∃ (n : Fin 50000) (j : Fin 128), i = (ix2 n j : S50000x128.Idx) := ⟨i 0, i 1, eq_ix2 i⟩
  have eL1 : ∀ k, lidx_main_v21 (ix2 n j) k = ix2 n k := fun k => funext fun a => Fin.ext (by match a with | ⟨0, _⟩ => rfl | ⟨1, _⟩ => rfl)
  have eR1 : ∀ k, ridx_main_v21 (ix2 n j) k = ix2 k j := fun k => funext fun a => Fin.ext (by match a with | ⟨0, _⟩ => rfl | ⟨1, _⟩ => rfl)
  have eL2 : ∀ k, lidx_main_v22 (ix2 n j) k = ix2 n k := fun k => funext fun a => Fin.ext (by match a with | ⟨0, _⟩ => rfl | ⟨1, _⟩ => rfl)
  have eR2 : ∀ k, ridx_main_v22 (ix2 n j) k = ix2 k j := fun k => funext fun a => Fin.ext (by match a with | ⟨0, _⟩ => rfl | ⟨1, _⟩ => rfl)
  have eB : idx_main_v24 (idx_main_v25 (ix2 n j)) = ix1 j := funext fun a => Fin.ext (by match a with | ⟨0, _⟩ => rfl)
  rw [val_main_v27_apply, val_main_v26_apply, val_main_v23_apply, val_main_v21_apply, val_main_v22_apply, val_main_v25_apply,
    val_main_v24_apply, val_main_call0_v0_apply, val_main_call0_cst_apply, Sage.hidden_apply]
  simp only [eL1, eR1, eL2, eR2, eB]
  rfl

/-- The second layer: the same of the first layer's result and its neighbour average. -/
theorem layer1 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) :
    val_main_v47 (F := Ideal) x0 x1 x2 x3 x4 x5 x6 x7 x8
      = Sage.hidden (val_main_v27 (F := Ideal) x0 x1 x2 x3 x4 x5) (val_main_v40 (F := Ideal) x0 x1 x2 x3 x4 x5) x6 x7 x8 := by
  funext i
  obtain ⟨n, j, rfl⟩ : ∃ (n : Fin 50000) (j : Fin 128), i = (ix2 n j : S50000x128.Idx) := ⟨i 0, i 1, eq_ix2 i⟩
  have eL1 : ∀ k, lidx_main_v41 (ix2 n j) k = ix2 n k := fun k => funext fun a => Fin.ext (by match a with | ⟨0, _⟩ => rfl | ⟨1, _⟩ => rfl)
  have eR1 : ∀ k, ridx_main_v41 (ix2 n j) k = ix2 k j := fun k => funext fun a => Fin.ext (by match a with | ⟨0, _⟩ => rfl | ⟨1, _⟩ => rfl)
  have eL2 : ∀ k, lidx_main_v42 (ix2 n j) k = ix2 n k := fun k => funext fun a => Fin.ext (by match a with | ⟨0, _⟩ => rfl | ⟨1, _⟩ => rfl)
  have eR2 : ∀ k, ridx_main_v42 (ix2 n j) k = ix2 k j := fun k => funext fun a => Fin.ext (by match a with | ⟨0, _⟩ => rfl | ⟨1, _⟩ => rfl)
  have eB : idx_main_v44 (idx_main_v45 (ix2 n j)) = ix1 j := funext fun a => Fin.ext (by match a with | ⟨0, _⟩ => rfl)
  rw [val_main_v47_apply, val_main_v46_apply, val_main_v43_apply, val_main_v41_apply, val_main_v42_apply, val_main_v45_apply,
    val_main_v44_apply, val_main_call1_v0_apply, val_main_call1_cst_apply, Sage.hidden_apply]
  simp only [eL1, eR1, eL2, eR2, eB]
  rfl

/-- The last layer: 64 output features, no comparison with zero. -/
theorem layer2 (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v66 (F := Ideal) x0 x1 x2 x3 x4 x5 x6 x7 x8 x9 x10 x11
      = Sage.dense64 (val_main_v47 (F := Ideal) x0 x1 x2 x3 x4 x5 x6 x7 x8) (val_main_v60 (F := Ideal) x0 x1 x2 x3 x4 x5 x6 x7 x8) x9 x10 x11 := by
  funext i
  obtain ⟨n, j, rfl⟩ : ∃ (n : Fin 50000) (j : Fin 64), i = (ix2 n j : S50000x64.Idx) := ⟨i 0, i 1, eq_ix2 i⟩
  have eL1 : ∀ k, lidx_main_v61 (ix2 n j) k = ix2 n k := fun k => funext fun a => Fin.ext (by match a with | ⟨0, _⟩ => rfl | ⟨1, _⟩ => rfl)
  have eR1 : ∀ k, ridx_main_v61 (ix2 n j) k = ix2 k j := fun k => funext fun a => Fin.ext (by match a with | ⟨0, _⟩ => rfl | ⟨1, _⟩ => rfl)
  have eL2 : ∀ k, lidx_main_v62 (ix2 n j) k = ix2 n k := fun k => funext fun a => Fin.ext (by match a with | ⟨0, _⟩ => rfl | ⟨1, _⟩ => rfl)
  have eR2 : ∀ k, ridx_main_v62 (ix2 n j) k = ix2 k j := fun k => funext fun a => Fin.ext (by match a with | ⟨0, _⟩ => rfl | ⟨1, _⟩ => rfl)
  have eB : idx_main_v64 (idx_main_v65 (ix2 n j)) = ix1 j := funext fun a => Fin.ext (by match a with | ⟨0, _⟩ => rfl)
  rw [val_main_v66_apply, val_main_v63_apply, val_main_v61_apply, val_main_v62_apply, val_main_v65_apply, val_main_v64_apply,
    Sage.dense64_apply]
  simp only [eL1, eR1, eL2, eR2, eB]
  rfl

/-! ## The whole reference -/

/-- THE REFERENCE'S RESULT is the specification's network over the reference's neighbour average. -/
theorem result_eq (x0 : (⟨S50000x128, .f32⟩ : BufTy).Contents (Elt Ideal)) (x1 x2 : (⟨S800000, .i32⟩ : BufTy).Contents (Elt Ideal)) (x3 x4 : (⟨S128x128, .f32⟩ : BufTy).Contents (Elt Ideal)) (x5 : (⟨S128, .f32⟩ : BufTy).Contents (Elt Ideal))
    (x6 x7 : (⟨S128x128, .f32⟩ : BufTy).Contents (Elt Ideal)) (x8 : (⟨S128, .f32⟩ : BufTy).Contents (Elt Ideal)) (x9 x10 : (⟨S128x64, .f32⟩ : BufTy).Contents (Elt Ideal)) (x11 : (⟨S64, .f32⟩ : BufTy).Contents (Elt Ideal)) :
    val_main_v66 (F := Ideal) x0 x1 x2 x3 x4 x5 x6 x7 x8 x9 x10 x11
      = Sage.net (Agg.neigh (F := Ideal) x1 x2 (Agg.invDeg x2)) x0 x3 x4 x5 x6 x7 x8 x9 x10 x11 := by
  have h1 : val_main_v27 (F := Ideal) x0 x1 x2 x3 x4 x5 = Sage.hidden x0 (Agg.neigh (F := Ideal) x1 x2 (Agg.invDeg x2) x0) x3 x4 x5 := by
    rw [layer0, hn0_eq]
  have h2 : val_main_v47 (F := Ideal) x0 x1 x2 x3 x4 x5 x6 x7 x8
      = Sage.hidden (Sage.hidden x0 (Agg.neigh (F := Ideal) x1 x2 (Agg.invDeg x2) x0) x3 x4 x5)
          (Agg.neigh (F := Ideal) x1 x2 (Agg.invDeg x2) (Sage.hidden x0 (Agg.neigh (F := Ideal) x1 x2 (Agg.invDeg x2) x0) x3 x4 x5)) x6 x7 x8 := by
    rw [layer1, hn1_eq, h1]
  rw [layer2, hn2_eq, h2]
  rfl

end Cert.ReferenceIdeal.RefValue

end
-- ==== Proof.lean ====
/-
  A three-layer graph network: each layer sends the node features h and their neighbour average hn to
  (h · Wself + hn · Wneigh) + b, the first two layers followed by the larger of that and zero. The kernel's program
  computes each layer in a Pallas call over ten blocks of 5000 rows (the factors changed to a shorter float format
  first, which is the identity at the exact values, and multiplied on the matrix unit into a zero accumulator); the
  reference computes it with two whole matrix products on the host. The neighbour average (a row gather along the
  edges, a scatter-add into the end nodes, a scaling by one over the in-degree) is computed by the SAME host
  operations in both programs and is never opened here.

  Over the extended reals the two programs compute the same sums and products in the same grouping, so they agree on
  every input: no entry's finiteness is used. The frames are the generated ones (the reference's is its generated
  run with the result dropped), and there is nothing to preserve: the idealized kernel is the kernel's own text.
-/
import proofs.«170023_j24232205484235_1_alg».proof.Defs
import proofs.«170023_j24232205484235_1_alg».proof.Proof.Gen.Kernel
import proofs.«170023_j24232205484235_1_alg».proof.Proof.Gen.Kernel.Skeleton
import proofs.«170023_j24232205484235_1_alg».proof.Proof.KernelLaunch
import proofs.«170023_j24232205484235_1_alg».proof.Proof.Gen.Kernel.Points
import proofs.«170023_j24232205484235_1_alg».proof.Proof.KernelFrame
import proofs.«170023_j24232205484235_1_alg».proof.Proof.Gen.KernelIdeal
import proofs.«170023_j24232205484235_1_alg».proof.Proof.Gen.KernelIdeal.Skeleton
import proofs.«170023_j24232205484235_1_alg».proof.Proof.KernelIdealLaunch
import proofs.«170023_j24232205484235_1_alg».proof.Proof.Gen.KernelIdeal.Points
import proofs.«170023_j24232205484235_1_alg».proof.Proof.KernelIdealFrame
import proofs.«170023_j24232205484235_1_alg».proof.Proof.Gen.ReferenceIdeal
import proofs.«170023_j24232205484235_1_alg».proof.Proof.Gen.ReferenceIdeal.Run
import proofs.«170023_j24232205484235_1_alg».proof.Proof.Gen.ReferenceIdeal.Read
import proofs.«170023_j24232205484235_1_alg».proof.Proof.Gen.Pre_finite_inputs
import proofs.«170023_j24232205484235_1_alg».proof.Proof.KernelIdealRun
import proofs.«170023_j24232205484235_1_alg».proof.Proof.Chain
import proofs.«170023_j24232205484235_1_alg».proof.Proof.RefValue
import Idealize.ShloMosaic.Adequacy
import Idealize.ShloMosaic.Init

noncomputable section

namespace Cert.Proof

open Idealize.ShloMosaic Idealize.SL.Sem

/-- The kernel's program as printed runs and leaves its arguments unchanged. -/
theorem frame_k : Cert.frame_Kernel := fun m ρ _ => Cert.Kernel.GenP.frame m ρ

/-- So does the idealized kernel's program. -/
theorem frame_ki : Cert.frame_KernelIdeal := fun m ρ _ => Cert.KernelIdeal.GenP.frame m ρ

/-- The reference is a host program: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network of those arguments in their result
    arrays: the kernel's program by its three regions read as layers and the host stretches between them, the
    reference by its stages read as the same layers; the two neighbour averages are one function. -/
theorem algebraic : Cert.algebraic_KernelIdeal_ReferenceIdeal := by
  intro m ρ m' ρ' _ hagree
  refine ⟨fun c => Sage.net (Cert.KernelIdeal.Chain.nb m c) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Chain.result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v66_eq, Cert.ReferenceIdeal.RefValue.result_eq, a0, a1, a2, a3, a4, a5, a6, a7, a8, a9, a10, a11]
    have hnb : Cert.ReferenceIdeal.Agg.neigh (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.ReferenceIdeal.Agg.invDeg (m ((c.tc : Thread Cert.KernelIdeal.nD Cert.KernelIdeal.τ).loc Cert.KernelIdeal.main_arg2)))
        = Cert.KernelIdeal.Chain.nb m c := funext fun h => by
      unfold Cert.KernelIdeal.Chain.nb
      rw [Cert.ReferenceIdeal.Agg.invDeg_eq, Cert.ReferenceIdeal.Agg.neigh_eq]
    rw [hnb]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
